-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3 : Shape := ⟨2, ![1024, 3]⟩
abbrev S200000x512 : Shape := ⟨2, ![200000, 512]⟩
abbrev S1000x512 : Shape := ⟨2, ![1000, 512]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : IVec S1024x3 32) (main_arg1 : FVec F S200000x512 .f32) (main_arg2 : FVec F S1000x512 .f32) : IVec S_ 1 :=
  let main_v0 : FVec F S200000x512 .f32 := Host.absf main_arg1
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S1024x3 : Shape := ⟨2, ![1024, 3]⟩
abbrev S200000x512 : Shape := ⟨2, ![200000, 512]⟩
abbrev S1000x512 : Shape := ⟨2, ![1000, 512]⟩
abbrev S1024x1 : Shape := ⟨2, ![1024, 1]⟩
abbrev S1024 : Shape := ⟨1, ![1024]⟩
abbrev S_ : Shape := ⟨0, ![]⟩
abbrev S1024x512 : Shape := ⟨2, ![1024, 512]⟩
abbrev S1024x256 : Shape := ⟨2, ![1024, 256]⟩
abbrev S1024x200000 : Shape := ⟨2, ![1024, 200000]⟩
abbrev S1536x512 : Shape := ⟨2, ![1536, 512]⟩
abbrev S1024x1536 : Shape := ⟨2, ![1024, 1536]⟩
abbrev S1536x256 : Shape := ⟨2, ![1536, 256]⟩

abbrev nBuf : Space → Nat
  | .hbm => 38
  | .vmem => 6
  | .smem => 0
  | _ => 0

abbrev bufTy : (tb : Table) → Fin (tcTables nBuf tb) → BufTy
  | .hbm, ⟨0, _⟩ => ⟨S1024x3, .i32⟩
  | .hbm, ⟨1, _⟩ => ⟨S200000x512, .f32⟩
  | .hbm, ⟨2, _⟩ => ⟨S1000x512, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x512, .f32⟩
  | .hbm, ⟨14, _⟩ => ⟨S1024x1, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x512, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S1024x256, .bf16⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .bf16⟩
  | .hbm, ⟨37, _⟩ => ⟨S1024x200000, .f32⟩
  | .local _ .vmem, ⟨0, _⟩ => ⟨S1024x256, .bf16⟩
  | .local _ .vmem, ⟨1, _⟩ => ⟨S1024x256, .bf16⟩
  | .local _ .vmem, ⟨2, _⟩ => ⟨S1536x512, .f32⟩
  | .local _ .vmem, ⟨3, _⟩ => ⟨S1536x512, .f32⟩
  | .local _ .vmem, ⟨4, _⟩ => ⟨S1024x1536, .f32⟩
  | .local _ .vmem, ⟨5, _⟩ => ⟨S1024x1536, .f32⟩
  | _, _ => ⟨S1024x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![131], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x3_S1024x1_0_1 : S1024x3.Slices ![0, 1] S1024x1
  slices_S1024x512_S1024x256_0_0 : S1024x512.Slices ![0, 0] S1024x256
  slices_S1024x512_S1024x256_0_256 : S1024x512.Slices ![0, 256] S1024x256
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  slices_S1536x512_o0_0_S1536x256 : S1536x512.Slices ![0, 0] S1536x256
  slices_S1536x512_o0_256_S1536x256 : S1536x512.Slices ![0, 256] S1536x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1536_S1024x1536_0_0 : ∀ a, (![0, 0] : Fin 2 → Nat) a + S1024x1536.size a ≤ S1024x1536.size a
  h_S1024x1536 : 0 < S1024x1536.numel
  gather_S200000x512_S1024x1_S1024x512_1_0_n_n_0_1_1512_wf : GatherDims.WF S200000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x256_S1536x256_S1024x1536_1_1_0_0_n_n_wf : DotDims.WF S1024x256 S1536x256 S1024x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1536x512.size a < S200000x512.size a
  hwx0_2 : ∀ i : grid0.Coords, EltTy.bits .f32 = 32 ∨ (Rect.unit (s := S200000x512) (fun a => cc0_transform_2 i a * S1536x512.size a) (fun a => (Pipeline.Clip.of (cc0_transform_2 i a) (S1536x512.size a) (S200000x512.size a)).extent (S1536x512.size a)) fun a => Pipeline.Clip.inb (Pipeline.Clip.ok_of (hstart0_2 i a))).WholeWords (EltTy.packing .f32)
  hwxs0_2 : ∀ i : grid0.Coords, EltTy.bits .f32 = 32 ∨ (Rect.unit (s := S1536x512) (fun _ => 0) (fun a => (Pipeline.Clip.of (cc0_transform_2 i a) (S1536x512.size a) (S200000x512.size a)).extent (S1536x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1536.size a < S1024x200000.size a
  hwx0_3 : ∀ i : grid0.Coords, EltTy.bits .f32 = 32 ∨ (Rect.unit (s := S1024x200000) (fun a => cc0_transform_3 i a * S1024x1536.size a) (fun a => (Pipeline.Clip.of (cc0_transform_3 i a) (S1024x1536.size a) (S1024x200000.size a)).extent (S1024x1536.size a)) fun a => Pipeline.Clip.inb (Pipeline.Clip.ok_of (hstart0_3 i a))).WholeWords (EltTy.packing .f32)
  hwxs0_3 : ∀ i : grid0.Coords, EltTy.bits .f32 = 32 ∨ (Rect.unit (s := S1024x1536) (fun _ => 0) (fun a => (Pipeline.Clip.of (cc0_transform_3 i a) (S1024x1536.size a) (S1024x200000.size a)).extent (S1024x1536.size a)) fun a => (Nat.zero_add _).trans_le (Pipeline.Clip.extent_le (Pipeline.Clip.ok_of (hstart0_3 i a)))).WholeWords (EltTy.packing .f32)

variable [Facts₀]

def gather_S200000x512_S1024x1_S1024x512_1_0_n_n_0_1_1512 : GatherDims S200000x512 S1024x1 S1024x512 where
  offsetDims := [1]
  collapsedSliceDims := [0]
  operandBatchingDims := []
  startIndicesBatchingDims := []
  startIndexMap := [0]
  indexVectorDim := 1
  sliceSizes := ![1, 512]
  wf := gather_S200000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x256_S1536x256_S1024x1536_1_1_0_0_n_n : DotDims S1024x256 S1536x256 S1024x1536 where
  lhsContracting := [1]
  rhsContracting := [1]
  lhsNonContracting := [0]
  rhsNonContracting := [0]
  lhsBatch := []
  rhsBatch := []
  wf := dot_S1024x256_S1536x256_S1024x1536_1_1_0_0_n_n_wf

abbrev win0_0 : Pipeline.Window sig grid0 :=
  Pipeline.Window.ofSpec (Memref.whole main_v25) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S1536x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v30) S1024x1536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x3 : Shape := ⟨2, ![1024, 3]⟩
abbrev S200000x512 : Shape := ⟨2, ![200000, 512]⟩
abbrev S1000x512 : Shape := ⟨2, ![1000, 512]⟩
abbrev S1024x1 : Shape := ⟨2, ![1024, 1]⟩
abbrev S1024 : Shape := ⟨1, ![1024]⟩
abbrev S_ : Shape := ⟨0, ![]⟩
abbrev S1024x512 : Shape := ⟨2, ![1024, 512]⟩
abbrev S1024x256 : Shape := ⟨2, ![1024, 256]⟩
abbrev S200000x256 : Shape := ⟨2, ![200000, 256]⟩
abbrev S256x200000 : Shape := ⟨2, ![256, 200000]⟩
abbrev S1024x200000 : Shape := ⟨2, ![1024, 200000]⟩

abbrev nBuf : Space → Nat
  | .hbm => 42
  | .vmem => 0
  | .smem => 0
  | _ => 0

abbrev bufTy : (tb : Table) → Fin (tcTables nBuf tb) → BufTy
  | .hbm, ⟨0, _⟩ => ⟨S1024x3, .i32⟩
  | .hbm, ⟨1, _⟩ => ⟨S200000x512, .f32⟩
  | .hbm, ⟨2, _⟩ => ⟨S1000x512, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x512, .f32⟩
  | .hbm, ⟨14, _⟩ => ⟨S1024x1, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x512, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S200000x256, .f32⟩
  | .hbm, ⟨30, _⟩ => ⟨S200000x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S256x200000, .f32⟩
  | .hbm, ⟨38, _⟩ => ⟨S1024x200000, .f32⟩
  | .hbm, ⟨39, _⟩ => ⟨S256x200000, .f32⟩
  | .hbm, ⟨40, _⟩ => ⟨S1024x200000, .f32⟩
  | .hbm, ⟨41, _⟩ => ⟨S1024x200000, .f32⟩
  | _, _ => ⟨S1024x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x3_S1024x1_0_1 : S1024x3.Slices ![0, 1] S1024x1
  slices_S1024x512_S1024x256_0_0 : S1024x512.Slices ![0, 0] S1024x256
  slices_S1024x512_S1024x256_0_256 : S1024x512.Slices ![0, 256] S1024x256
  slices_S200000x512_S200000x256_0_0 : S200000x512.Slices ![0, 0] S200000x256
  slices_S200000x512_S200000x256_0_256 : S200000x512.Slices ![0, 256] S200000x256
  transposes_S200000x256_S256x200000_1_0 : S200000x256.Transposes [1, 0] S256x200000
  gather_S200000x512_S1024x1_S1024x512_1_0_n_n_0_1_1512_wf : GatherDims.WF S200000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x256_S256x200000_S1024x200000_1_0_0_1_n_n_wf : DotDims.WF S1024x256 S256x200000 S1024x200000 [1] [0] [0] [1] [] []

variable [Facts₀]

def gather_S200000x512_S1024x1_S1024x512_1_0_n_n_0_1_1512 : GatherDims S200000x512 S1024x1 S1024x512 where
  offsetDims := [1]
  collapsedSliceDims := [0]
  operandBatchingDims := []
  startIndicesBatchingDims := []
  startIndexMap := [0]
  indexVectorDim := 1
  sliceSizes := ![1, 512]
  wf := gather_S200000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x256_S256x200000_S1024x200000_1_0_0_1_n_n : DotDims S1024x256 S256x200000 S1024x200000 where
  lhsContracting := [1]
  rhsContracting := [0]
  lhsNonContracting := [0]
  rhsNonContracting := [1]
  lhsBatch := []
  rhsBatch := []
  wf := dot_S1024x256_S256x200000_S1024x200000_1_0_0_1_n_n_wf

class Facts : Prop extends Facts₀ where

variable [Facts]
-- ==== Proof.KBody.lean ====
/-
  The kernel body's triple, at any float instance: run on four whole staging buffers — the two query blocks, the
  entity block and the result block — it leaves the first three as they were and the result block holding the
  body's one stored value, a function of the three blocks it loaded.
-/
import proofs.«135217_j8924942041805_1_alg».proof.Proof.Gen.Kernel.Frame
import proofs.«135217_j8924942041805_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The zero offsets of a rank-two block, as the constant function. -/
private theorem zeros2 : (![0, 0] : Fin 2 → Nat) = fun _ => 0 := funext fun a => by fin_cases a <;> rfl

/-- One write of the whole block at zero offsets, read back, is its payload: over any view and any prior contents. -/
private theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-- A load through the whole rectangle at zero offsets reads the buffer's contents: over any view. -/
private theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

/-- What the body stores into the result block: the sum of the two matrix products of the query blocks `x0`, `x1`
    with the two column halves of the entity block `x2`. -/
def outBlk (x0 x1 : Vec F S1024x256 .bf16) (x2 : Vec F S1536x512 .f32) : Vec F S1024x1536 .f32 :=
  k0_pay1 x2 x0 x1

set_option maxHeartbeats 1000000 in
theorem sound_kernel (c : Dev nD) (E : Set ℕ) (i : grid0.Coords)
    (arg1 : Memref sig .tc .vmem S1024x256 .bf16) (harg1 : arg1.IsWhole) (arg2 : Memref sig .tc .vmem S1024x256 .bf16) (harg2 : arg2.IsWhole)
    (arg3 : Memref sig .tc .vmem S1536x512 .f32) (harg3 : arg3.IsWhole) (arg4 : Memref sig .tc .vmem S1024x1536 .f32) (harg4 : arg4.IsWhole)
    (x0 x1 : Vec F S1024x256 .bf16) (x2 : Vec F S1536x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is of the whole block, so the result block reads back as the stored value; each load was through
  -- the whole rectangle of its block, so it read that block's contents; and `outBlk` is that value by definition
  rw [read_write_whole arg4.view f3 zeros2]
  rw [readAt_whole arg3.view f2 zeros2, readAt_whole arg1.view f0 zeros2, readAt_whole arg2.view f1 zeros2]
  rfl

end Cert.Kernel.Body

end
-- ==== Proof.KData.lean ====
/-
  The proof data of the one pipeline, at any float instance. The grid has 131 points; point `t` stages rows
  `1536 t ‥ 1536 t + 1535` of the entity table and writes back columns `1536 t ‥` of the result. The last point's
  block overhangs both arrays (131 · 1536 = 201216 > 200000): its fetch lands only the 320 rows inside the table
  and the rest of the staging buffer holds words nothing names; its write-back writes only the 320 columns inside
  the result. After the body the two query buffers hold their (whole-array) blocks, the entity buffer its block —
  stated on the rows inside the table, filled out here with zero words — and the result buffer the body's stored
  value of those three.
-/
import proofs.«135217_j8924942041805_1_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entity block of point `t` as a full staging block: the rows inside the table, zero words below them. -/
def eblk (c : Dev nD) (t : Fin cfg0.N) : Vec F S1536x512 .f32 :=
  win0_2.fill (grid0.coords t) (fun _ => Scalar.ofBits .f32 0#32) (iblk m c 2 t)

/-- The proof data: the arrays as the region finds them; after the body the query buffers at their blocks, the entity
    buffer at `eblk`, the result buffer at the body's value of the three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => eblk m c t
    | ⟨3, _⟩ => outBlk (iblk m c 0 t) (iblk m c 1 t) (eblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = eblk m c t := by dsimp only [dats]
theorem after0_3 (c : Dev nD) (t : Fin cfg0.N) :
    (dats m 0 c).after 3 t = outBlk (iblk m c 0 t) (iblk m c 1 t) (eblk m c t) := by dsimp only [dats]

/-- The query buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The entity buffer is fetched at every point: it holds its block on the rows inside the table and whatever the
    overwrite before the fetch left, `d`, below them. -/
theorem before0_2 (c : Dev nD) (t : Fin cfg0.N) (d) :
    (dats m 0 c).before 2 t d = win0_2.fill (grid0.coords t) d (iblk m c 2 t) := by
  unfold Dat.before; rw [if_pos (fetch0_2 t)]; rfl

/-- The result buffer, written back at every point, holds nothing the proof names when the body runs. -/
theorem before0_3 (c : Dev nD) (t : Fin cfg0.N) (d) : (dats m 0 c).before 3 t d = d :=
  (dats m 0 c).before_out_reset 3 rfl t
    (by
      by_cases h : t.val = 0
      · exact Or.inl h
      · exact Or.inr ⟨h, flush0_3 _⟩) d

end Cert.Kernel.Body

end
-- ==== Proof.KFrame.lean ====
/-
  The frame of the kernel as printed, at the word-level instance. There the matrix unit's product is an opaque function
  of its whole operands, so at the last grid point — where the entity buffer's rows below the table's end hold words
  nothing names — nothing can be said of the result block, not even on the columns written back. The frame does not need
  it: the result window is FORGOTTEN (the body is handed its buffer at anything and hands it back at anything), the three
  input windows are kept exactly as at the ideal instance, and the run's post then says of each input array that it
  holds its entry contents and of every buffer no window stages that it is untouched.
-/
import proofs.«135217_j8924942041805_1_alg».proof.Proof.KData
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows forgotten: the result's alone. -/
abbrev fgt : Fin cfg0.W → Bool := fun w => w.val == 3

/-- What the body is called with at point `t`: the result buffer at anything, -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the result buffer at anything again. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ X, owns (c : Thread nD τ) (st0_3 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩⟩
  iapply (sound_kernel (F := F) c Set.univ _ _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show win0_2.cut (grid0.coords t) (eblk m c t) = iblk m c 2 t from win0_2.cut_fill _ _ _]
    iexact H2
  · iexists _; iexact H3

theorem body_obligationF (c : Dev nD) :
    BodyObligationLoose (dats (F := F) m 0 c) (defs₀ (F := F)) Variants.none () Set.univ fgt := fun t => by
  rw [bigSep_W0, bigSep_W0]
  exact sound_bodyF m c t

set_option backward.isDefEq.respectTransparency.types false in
theorem run_mainF : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligationF m c).toRForget)
    (hshare := fun c => (dats m 0 c).share_full fun _ => rfl)
    (howed := fun _ _ => rfl) (V := V m) (hmain := hmain m Variants.none) (hA := A_eq m) (hΦ := fun _ _ => rfl)

/-- The frame: the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      (by
        have h2 := (h c).1 2
        rw [Pipeline.RDat.ArrAt_in _ 2 rfl] at h2
        exact h2.trans ((A_eq m c 2).trans (V_main_arg1 m c))),
      ((h c).2 main_arg2 (Pipeline.mem_restRefs_of main_arg2 (by decide) (by decide))).trans (V_main_arg2 m c)⟩)
    (run_mainF m ρ)

end Cert.Kernel.Body

end
-- ==== Proof.KIBody.lean ====
/-
  The kernel body's triple, at any float instance: run on four whole staging buffers — the two query blocks, the
  entity block and the result block — it leaves the first three as they were and the result block holding the
  body's one stored value, a function of the three blocks it loaded.
-/
import proofs.«135217_j8924942041805_1_alg».proof.Proof.Gen.KernelIdeal.Frame
import proofs.«135217_j8924942041805_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The zero offsets of a rank-two block, as the constant function. -/
private theorem zeros2 : (![0, 0] : Fin 2 → Nat) = fun _ => 0 := funext fun a => by fin_cases a <;> rfl

/-- One write of the whole block at zero offsets, read back, is its payload: over any view and any prior contents. -/
private theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-- A load through the whole rectangle at zero offsets reads the buffer's contents: over any view. -/
private theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

/-- What the body stores into the result block: the sum of the two matrix products of the query blocks `x0`, `x1`
    with the two column halves of the entity block `x2`. -/
def outBlk (x0 x1 : Vec F S1024x256 .bf16) (x2 : Vec F S1536x512 .f32) : Vec F S1024x1536 .f32 :=
  k0_pay1 x2 x0 x1

set_option maxHeartbeats 1000000 in
theorem sound_kernel (c : Dev nD) (E : Set ℕ) (i : grid0.Coords)
    (arg1 : Memref sig .tc .vmem S1024x256 .bf16) (harg1 : arg1.IsWhole) (arg2 : Memref sig .tc .vmem S1024x256 .bf16) (harg2 : arg2.IsWhole)
    (arg3 : Memref sig .tc .vmem S1536x512 .f32) (harg3 : arg3.IsWhole) (arg4 : Memref sig .tc .vmem S1024x1536 .f32) (harg4 : arg4.IsWhole)
    (x0 x1 : Vec F S1024x256 .bf16) (x2 : Vec F S1536x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is of the whole block, so the result block reads back as the stored value; each load was through
  -- the whole rectangle of its block, so it read that block's contents; and `outBlk` is that value by definition
  rw [read_write_whole arg4.view f3 zeros2]
  rw [readAt_whole arg3.view f2 zeros2, readAt_whole arg1.view f0 zeros2, readAt_whole arg2.view f1 zeros2]
  rfl

end Cert.KernelIdeal.Body

end
-- ==== Proof.KIData.lean ====
/-
  The proof data of the one pipeline, at any float instance. The grid has 131 points; point `t` stages rows
  `1536 t ‥ 1536 t + 1535` of the entity table and writes back columns `1536 t ‥` of the result. The last point's
  block overhangs both arrays (131 · 1536 = 201216 > 200000): its fetch lands only the 320 rows inside the table
  and the rest of the staging buffer holds words nothing names; its write-back writes only the 320 columns inside
  the result. After the body the two query buffers hold their (whole-array) blocks, the entity buffer its block —
  stated on the rows inside the table, filled out here with zero words — and the result buffer the body's stored
  value of those three.
-/
import proofs.«135217_j8924942041805_1_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entity block of point `t` as a full staging block: the rows inside the table, zero words below them. -/
def eblk (c : Dev nD) (t : Fin cfg0.N) : Vec F S1536x512 .f32 :=
  win0_2.fill (grid0.coords t) (fun _ => Scalar.ofBits .f32 0#32) (iblk m c 2 t)

/-- The proof data: the arrays as the region finds them; after the body the query buffers at their blocks, the entity
    buffer at `eblk`, the result buffer at the body's value of the three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => eblk m c t
    | ⟨3, _⟩ => outBlk (iblk m c 0 t) (iblk m c 1 t) (eblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = eblk m c t := by dsimp only [dats]
theorem after0_3 (c : Dev nD) (t : Fin cfg0.N) :
    (dats m 0 c).after 3 t = outBlk (iblk m c 0 t) (iblk m c 1 t) (eblk m c t) := by dsimp only [dats]

/-- The query buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The entity buffer is fetched at every point: it holds its block on the rows inside the table and whatever the
    overwrite before the fetch left, `d`, below them. -/
theorem before0_2 (c : Dev nD) (t : Fin cfg0.N) (d) :
    (dats m 0 c).before 2 t d = win0_2.fill (grid0.coords t) d (iblk m c 2 t) := by
  unfold Dat.before; rw [if_pos (fetch0_2 t)]; rfl

/-- The result buffer, written back at every point, holds nothing the proof names when the body runs. -/
theorem before0_3 (c : Dev nD) (t : Fin cfg0.N) (d) : (dats m 0 c).before 3 t d = d :=
  (dats m 0 c).before_out_reset 3 rfl t
    (by
      by_cases h : t.val = 0
      · exact Or.inl h
      · exact Or.inr ⟨h, flush0_3 _⟩) d

end Cert.KernelIdeal.Body

end
-- ==== Proof.Spec.lean ====
/-
  The score both programs compute, as one function of three arrays, index by index over the extended reals.
  For a query row `b` and an entity row `r` the score is the real part of a complex bilinear form: the sum over the
  256 complex coordinates of `ra b k * e r k` (real halves) plus the sum of `ia b k * e r (256 + k)` (imaginary halves),
  where `ra`, `ia` are the real and imaginary parts of the query (head times relation) and `e` is the entity table, its
  first 256 columns the real parts and its last 256 the imaginary parts.
  `rowScore` is stated for a table of any number of rows, so that it reads both a block of 1536 entity rows and the
  whole table of 200000.
-/
import Idealize.ShloMosaic.PureOps.Ideal
import Idealize.ShloMosaic.Lib.ValueIdx

noncomputable section

namespace Cert.Spec

open Idealize.ShloMosaic Idealize.ShloMosaic.ValueIdx

/-- Column `k` of the real half of an entity row. -/
def colRe (k : Fin 256) : Fin 512 := ⟨k.val, by omega⟩
/-- Column `256 + k`: coordinate `k` of the imaginary half. -/
def colIm (k : Fin 256) : Fin 512 := ⟨256 + k.val, by omega⟩

/-- The score of query row `b` against entity row `r` of a table of `n` rows. -/
def rowScore {n : Nat} (ra ia : (⟨2, ![1024, 256]⟩ : Shape).Idx → EReal) (e : (⟨2, ![n, 512]⟩ : Shape).Idx → EReal)
    (b : Fin 1024) (r : Fin n) : EReal :=
  (∑ k : Fin 256, ra (ix2 b k) * e (ix2 r (colRe k))) + ∑ k : Fin 256, ia (ix2 b k) * e (ix2 r (colIm k))

/-- All scores: entry `(b, r)` is `rowScore` of query row `b` and entity row `r` of the whole table. -/
def score (ra ia : (⟨2, ![1024, 256]⟩ : Shape).Idx → EReal) (e : (⟨2, ![200000, 512]⟩ : Shape).Idx → EReal) :
    (⟨2, ![1024, 200000]⟩ : Shape).Idx → EReal :=
  fun i => rowScore ra ia e (i 0) (i 1)

theorem score_apply (ra ia : (⟨2, ![1024, 256]⟩ : Shape).Idx → EReal) (e : (⟨2, ![200000, 512]⟩ : Shape).Idx → EReal)
    (b : Fin 1024) (r : Fin 200000) : score ra ia e (ix2 b r) = rowScore ra ia e b r := rfl

end Cert.Spec

end
-- ==== Proof.KIPay.lean ====
/-
  The body's stored block read at an entry, at the ideal instance: entry `(b, j)` of the block is the score of query
  row `b` against row `j` of the entity block — each matrix product into the zero block is a plain sum of products over
  the 256 contracted columns, the two casts to the narrower float format are the identity, and the two column halves
  of the entity block are its columns `k` and `256 + k`. In particular entry `(b, j)` depends on the entity block only
  through its row `j`.
-/
import proofs.«135217_j8924942041805_1_alg».proof.Proof.KIBody
import proofs.«135217_j8924942041805_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx

/-- On the left operand the free axis 0 reads the output's row coordinate. -/
private theorem lhs_ax0 (i : S1024x1536.Idx) (q : dot_S1024x256_S1536x256_S1024x1536_1_1_0_0_n_n.contr.Idx) :
    (dot_S1024x256_S1536x256_S1024x1536_1_1_0_0_n_n.lhsIdx i q 0).val = (i 0).val := by
  unfold DotDims.lhsIdx
  rw [dif_neg (show ¬(0 : Fin S1024x256.rank) ∈ dot_S1024x256_S1536x256_S1024x1536_1_1_0_0_n_n.lhsBatch by decide), dif_pos (show (0 : Fin S1024x256.rank) ∈ dot_S1024x256_S1536x256_S1024x1536_1_1_0_0_n_n.lhsNonContracting by decide)]
  rfl

/-- On the left operand the contracted axis 1 reads the contraction coordinate. -/
private theorem lhs_ax1 (i : S1024x1536.Idx) (q : dot_S1024x256_S1536x256_S1024x1536_1_1_0_0_n_n.contr.Idx) :
    (dot_S1024x256_S1536x256_S1024x1536_1_1_0_0_n_n.lhsIdx i q 1).val = (q ⟨0, by decide⟩).val :=
  dot_S1024x256_S1536x256_S1024x1536_1_1_0_0_n_n.lhsIdx_val_of_single rfl i q

/-- On the right operand the free axis 0 reads the output's column coordinate. -/
private theorem rhs_ax0 (i : S1024x1536.Idx) (q : dot_S1024x256_S1536x256_S1024x1536_1_1_0_0_n_n.contr.Idx) :
    (dot_S1024x256_S1536x256_S1024x1536_1_1_0_0_n_n.rhsIdx i q 0).val = (i 1).val := by
  unfold DotDims.rhsIdx
  rw [dif_neg (show ¬(0 : Fin S1536x256.rank) ∈ dot_S1024x256_S1536x256_S1024x1536_1_1_0_0_n_n.rhsBatch by decide), dif_pos (show (0 : Fin S1536x256.rank) ∈ dot_S1024x256_S1536x256_S1024x1536_1_1_0_0_n_n.rhsNonContracting by decide)]
  rfl

/-- On the right operand the contracted axis 1 reads the contraction coordinate. -/
private theorem rhs_ax1 (i : S1024x1536.Idx) (q : dot_S1024x256_S1536x256_S1024x1536_1_1_0_0_n_n.contr.Idx) :
    (dot_S1024x256_S1536x256_S1024x1536_1_1_0_0_n_n.rhsIdx i q 1).val = (q ⟨0, by decide⟩).val :=
  dot_S1024x256_S1536x256_S1024x1536_1_1_0_0_n_n.rhsIdx_val_of_single rfl i q

/-- One matrix product into the zero block, read at entry `(b, j)`: both operands contract their second axis, so it is
    the sum over the 256 columns `k` of the left operand at `(b, k)` times the right operand at `(j, k)`. -/
private theorem mm_apply (y : FVec Ideal S1024x256 .bf16) (z : FVec Ideal S1536x256 .bf16) (b : Fin 1024) (j : Fin 1536) :
    matmul (F := Ideal) dot_S1024x256_S1536x256_S1024x1536_1_1_0_0_n_n none y z (constant (F := Ideal) S1024x1536 .f32 0x00000000#32) (ix2 b j)
      = ∑ k : Fin 256, y (ix2 b k) * z (ix2 j k) := by
  simp only [matmul]
  rw [Ideal.matmul_constant_zero_apply, ← Equiv.sum_comp (ValueIdx.contrEquiv1 dot_S1024x256_S1536x256_S1024x1536_1_1_0_0_n_n 256 rfl rfl).symm]
  refine Finset.sum_congr rfl fun k _ => ?_
  have hk := ValueIdx.contrEquiv1_symm_val dot_S1024x256_S1536x256_S1024x1536_1_1_0_0_n_n 256 rfl rfl k
  have el : dot_S1024x256_S1536x256_S1024x1536_1_1_0_0_n_n.lhsIdx (ix2 b j) ((ValueIdx.contrEquiv1 dot_S1024x256_S1536x256_S1024x1536_1_1_0_0_n_n 256 rfl rfl).symm k) = ix2 b k := funext fun a => Fin.ext (by
    match a with
    | ⟨0, _⟩ => exact lhs_ax0 _ _
    | ⟨1, _⟩ => exact (lhs_ax1 _ _).trans hk)
  have er : dot_S1024x256_S1536x256_S1024x1536_1_1_0_0_n_n.rhsIdx (ix2 b j) ((ValueIdx.contrEquiv1 dot_S1024x256_S1536x256_S1024x1536_1_1_0_0_n_n 256 rfl rfl).symm k) = ix2 j k := funext fun a => Fin.ext (by
    match a with
    | ⟨0, _⟩ => exact rhs_ax0 _ _
    | ⟨1, _⟩ => exact (rhs_ax1 _ _).trans hk)
  rw [el, er]

theorem outBlk_apply (x0 x1 : Vec Ideal S1024x256 .bf16) (x2 : Vec Ideal S1536x512 .f32) (b : Fin 1024) (j : Fin 1536) :
    outBlk (F := Ideal) x0 x1 x2 (ix2 b j) = Cert.Spec.rowScore x0 x1 x2 b j := by
  unfold outBlk Gen.k0_pay1
  rw [addf_apply, mm_apply, mm_apply]
  unfold Cert.Spec.rowScore
  -- term by term: the cast to the same shape and the narrowing are the identity, and a column half of the entity block
  -- read at `(j, k)` is the block at `(j, k)`, respectively `(j, 256 + k)`
  refine congrArg₂ (· + ·) (Finset.sum_congr rfl fun k _ => ?_) (Finset.sum_congr rfl fun k _ => ?_)
  · refine congrArg₂ (· * ·) (congrFun (shapeCast_self x0 _) _) ?_
    refine (truncf_apply (ψ := .bf16) _ bitsLt_bf16_f32 _).trans ?_
    exact extractStridedSlice_apply _ x2 _ (ix2 j k) (ix2 j (Cert.Spec.colRe k)) fun a => by
      match a with
      | ⟨0, _⟩ => show j.val = 0 + j.val; omega
      | ⟨1, _⟩ => show k.val = 0 + k.val; omega
  · refine congrArg₂ (· * ·) (congrFun (shapeCast_self x1 _) _) ?_
    refine (truncf_apply (ψ := .bf16) _ bitsLt_bf16_f32 _).trans ?_
    exact extractStridedSlice_apply _ x2 _ (ix2 j k) (ix2 j (Cert.Spec.colIm k)) fun a => by
      match a with
      | ⟨0, _⟩ => show j.val = 0 + j.val; omega
      | ⟨1, _⟩ => show 256 + k.val = 256 + k.val; rfl

/-- Two entity blocks that agree on row `j` give the same entry `(b, j)`. -/
theorem outBlk_congr_row (x0 x1 : Vec Ideal S1024x256 .bf16) (x2 x2' : Vec Ideal S1536x512 .f32) (b : Fin 1024) (j : Fin 1536)
    (h : ∀ q : Fin 512, x2 (ix2 j q) = x2' (ix2 j q)) :
    outBlk (F := Ideal) x0 x1 x2 (ix2 b j) = outBlk (F := Ideal) x0 x1 x2' (ix2 b j) := by
  rw [outBlk_apply, outBlk_apply]
  unfold Cert.Spec.rowScore
  simp only [h]

end Cert.KernelIdeal.Body

end
-- ==== Proof.KIOblig.lean ====
/-
  The body obligation and the run of the idealized kernel, at the ideal instance. At every point the body finds the two
  query buffers at their blocks, the entity buffer at its block on the rows inside the table (anything below them) and
  the result buffer at anything; it leaves the first three as found and the result buffer at the stored block of what it
  found. On the columns the write-back moves — column `j` is moved exactly when entity row `j` is inside the table —
  that block does not depend on the rows below the table's end, because entry `(b, j)` reads only row `j` of the entity
  block: so it agrees there with the block computed from the entity block filled out with zeros, which is what the
  proof data name.
-/
import proofs.«135217_j8924942041805_1_alg».proof.Proof.KIData
import proofs.«135217_j8924942041805_1_alg».proof.Proof.KIPay

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- At every point the result window's cut on its column axis is the entity window's cut on its row axis, and the
    entity window keeps all 512 columns. -/
theorem cuts_agree : ∀ t : Fin cfg0.N,
    win0_3.xsize (grid0.coords t) 1 = win0_2.xsize (grid0.coords t) 0 ∧ win0_2.xsize (grid0.coords t) 1 = 512 :=
  (by decide +kernel : ∀ t : Fin grid0.N,
    win0_3.xsize (grid0.coords t) 1 = win0_2.xsize (grid0.coords t) 0 ∧ win0_2.xsize (grid0.coords t) 1 = 512)

/-- On a position the fetch moves, a filled block does not depend on the filler. -/
theorem fill_moved {α : Type} (i : grid0.Coords) (d d' : win0_2.block.Idx → α) (g : (win0_2.xblock i).Idx → α)
    (j : win0_2.block.Idx) (h : win0_2.moved i j = true) : win0_2.fill i d g j = win0_2.fill i d' g j := by
  unfold Window.fill; rw [dif_pos h, dif_pos h]

/-- The stored block, cut to the columns the write-back moves, is the same whatever lies below the table's end in the
    entity buffer. -/
theorem cut_outBlk (t : Fin cfg0.N) (x0 x1 : Vec Ideal S1024x256 .bf16) (d d' : Vec Ideal S1536x512 .f32)
    (g : (win0_2.xblock (grid0.coords t)).Idx → Elt Ideal .f32) :
    win0_3.cut (grid0.coords t) (outBlk (F := Ideal) x0 x1 (win0_2.fill (grid0.coords t) d g))
      = win0_3.cut (grid0.coords t) (outBlk (F := Ideal) x0 x1 (win0_2.fill (grid0.coords t) d' g)) := by
  funext j
  show outBlk (F := Ideal) x0 x1 _ (win0_3.xinj (grid0.coords t) j) = outBlk (F := Ideal) x0 x1 _ (win0_3.xinj (grid0.coords t) j)
  have hb : (j 0).val < 1024 := Nat.lt_of_lt_of_le (j 0).isLt (win0_3.xsize_le (grid0.coords t) 0)
  have hj : (j 1).val < 1536 := Nat.lt_of_lt_of_le (j 1).isLt (win0_3.xsize_le (grid0.coords t) 1)
  have e : win0_3.xinj (grid0.coords t) j = ix2 (⟨(j 0).val, hb⟩ : Fin 1024) (⟨(j 1).val, hj⟩ : Fin 1536) :=
    funext fun a => Fin.ext (by
      match a with
      | ⟨0, _⟩ => rfl
      | ⟨1, _⟩ => rfl)
  rw [e]
  refine outBlk_congr_row x0 x1 _ _ _ _ fun q => ?_
  refine fill_moved (grid0.coords t) d d' g _ ((win0_2.moved_iff (grid0.coords t) _).mpr fun a => ?_)
  match a with
  | ⟨0, _⟩ =>
    show (j 1).val < win0_2.xsize (grid0.coords t) 0
    rw [← (cuts_agree t).1]; exact (j 1).isLt
  | ⟨1, _⟩ =>
    show q.val < win0_2.xsize (grid0.coords t) 1
    rw [(cuts_agree t).2]; exact q.isLt

/-- So the block the body leaves, on the moved columns, is the block the proof data name. -/
theorem fill_cut_out (c : Dev nD) (t : Fin cfg0.N) (d2 : Vec Ideal S1536x512 .f32) :
    win0_3.fill (grid0.coords t)
        (outBlk (F := Ideal) (iblk m c 0 t) (iblk m c 1 t) (win0_2.fill (grid0.coords t) d2 (iblk m c 2 t)))
        (win0_3.cut (grid0.coords t) (outBlk (F := Ideal) (iblk m c 0 t) (iblk m c 1 t) (eblk m c t)))
      = outBlk (F := Ideal) (iblk m c 0 t) (iblk m c 1 t) (win0_2.fill (grid0.coords t) d2 (iblk m c 2 t)) := by
  unfold eblk
  exact win0_3.fill_congr_cut (grid0.coords t) (cut_outBlk t (iblk m c 0 t) (iblk m c 1 t) d2 _ (iblk m c 2 t))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the clipped windows' buffers stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ _ _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show win0_2.cut (grid0.coords t) (eblk m c t) = iblk m c 2 t from win0_2.cut_fill _ _ _]
    iexact H2
  · iexists outBlk (F := Ideal) (iblk m c 0 t) (iblk m c 1 t) (win0_2.fill (grid0.coords t) d2 (iblk m c 2 t))
    rw [fill_cut_out m c t d2]
    iexact H3

theorem body_obligation (c : Dev nD) :
    BodyObligationLoose (dats (F := Ideal) m 0 c) (defs₀ (F := Ideal)) Variants.none () Set.univ := fun t => by
  rw [bigSep_W0, bigSep_W0]
  exact sound_body m c t

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.KIValue.lean ====
/-
  The result array after the run, at the ideal instance: the 131 write-backs, each cut at the array's end, together
  write every column, and what point `t` writes at column `1536 t + j` of row `b` is the score of query row `b` against
  entity row `1536 t + j`: the whole array is `Spec.score` of the two query arrays and the entity table.
-/
import proofs.«135217_j8924942041805_1_alg».proof.Proof.KIData
import proofs.«135217_j8924942041805_1_alg».proof.Proof.KIPay

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

variable (m : (ℓ : Loc nD τ sig) → Buf (Elt Ideal) ℓ)

/-- The index maps and the cuts, over the grid: the query windows stay at block (0, 0); point `t` stages entity block
    `(t, 0)` and writes result block `(0, t)`; the result block's cut along its columns is the entity block's cut along
    its rows, and ends where the array does. -/
private theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_3.xsize (grid0.coords t) (0 : Fin 2) = 1024
    ∧ win0_3.xsize (grid0.coords t) (1 : Fin 2) = win0_2.xsize (grid0.coords t) (0 : Fin 2)
    ∧ win0_2.xsize (grid0.coords t) (1 : Fin 2) = 512
    ∧ t.val * 1536 + win0_3.xsize (grid0.coords t) (1 : Fin 2) = min ((t.val + 1) * 1536) 200000 :=
  (by decide +kernel : ∀ t : Fin grid0.N, _)

/-! Arithmetic of the blocks, over plain numbers. -/
private theorem ar_zero (x : Nat) : 0 * 1024 + 1 * x = x := by omega
private theorem ar_one (a x : Nat) : a * 1536 + 1 * x = a * 1536 + x := by omega
private theorem ar_in (tv j1 xs : Nat) (h : j1 < xs) (hend : tv * 1536 + xs = min ((tv + 1) * 1536) 200000) :
    tv * 1536 + j1 < 200000 := by omega
private theorem ar_row (i0 : Nat) (h : i0 < 1024) : 0 * 1024 ≤ i0 ∧ i0 < 0 * 1024 + 1024 := by omega
private theorem ar_col (i1 tv xs : Nat) (hi1 : i1 < 200000) (ht : tv = i1 / 1536)
    (hend : tv * 1536 + xs = min ((tv + 1) * 1536) 200000) : tv * 1536 ≤ i1 ∧ i1 < tv * 1536 + xs := by omega
private theorem ar_pt (i1 : Nat) (h : i1 < 200000) : i1 / 1536 < 131 := by omega

/-- The first query block at any point is the whole first query array. -/
private theorem qblk0_apply (c : Dev nD) (t : Fin cfg0.N) (x k : S1024x256.Idx)
    (h0 : (k 0).val = (x 0).val) (h1 : (k 1).val = (x 1).val) :
    (iblk m c 0 t : Vec Ideal S1024x256 .bf16) x = (V m c main_v25 : S1024x256.Idx → EReal) k := by
  obtain ⟨e00, e01, -⟩ := idx_facts t
  unfold iblk
  rw [View.read_apply]
  show V m c main_v25 _ = V m c main_v25 _
  refine congrArg _ ?_
  funext a; apply Fin.ext
  match a with
  | ⟨0, _⟩ => show win0_0.index t (0 : Fin 2) * 1024 + 1 * (x 0).val = (k 0).val; rw [e00, h0]; omega
  | ⟨1, _⟩ => show win0_0.index t (1 : Fin 2) * 256 + 1 * (x 1).val = (k 1).val; rw [e01, h1]; omega

/-- The second query block likewise. -/
private theorem qblk1_apply (c : Dev nD) (t : Fin cfg0.N) (x k : S1024x256.Idx)
    (h0 : (k 0).val = (x 0).val) (h1 : (k 1).val = (x 1).val) :
    (iblk m c 1 t : Vec Ideal S1024x256 .bf16) x = (V m c main_v29 : S1024x256.Idx → EReal) k := by
  obtain ⟨-, -, e10, e11, -⟩ := idx_facts t
  unfold iblk
  rw [View.read_apply]
  show V m c main_v29 _ = V m c main_v29 _
  refine congrArg _ ?_
  funext a; apply Fin.ext
  match a with
  | ⟨0, _⟩ => show win0_1.index t (0 : Fin 2) * 1024 + 1 * (x 0).val = (k 0).val; rw [e10, h0]; omega
  | ⟨1, _⟩ => show win0_1.index t (1 : Fin 2) * 256 + 1 * (x 1).val = (k 1).val; rw [e11, h1]; omega

/-- Row `r` of the entity block of point `t`, a row inside the table, is row `1536 t + r` of the table. -/
private theorem eblk_apply (c : Dev nD) (t : Fin cfg0.N) (r : Fin 1536) (q : Fin 512) (r' : Fin 200000)
    (hr : r.val < win0_2.xsize (grid0.coords t) (0 : Fin 2)) (hr' : r'.val = t.val * 1536 + r.val) :
    eblk m c t (ix2 r q) = (V m c main_arg1 : S200000x512.Idx → EReal) (ix2 r' q) := by
  obtain ⟨-, -, -, -, e20, e21, -, -, -, -, x21, -⟩ := idx_facts t
  have hmv : win0_2.moved (grid0.coords t) (ix2 r q) = true :=
    (win0_2.moved_iff _ _).mpr fun a => by
      match a with
      | ⟨0, _⟩ => exact hr
      | ⟨1, _⟩ => show q.val < win0_2.xsize (grid0.coords t) (1 : Fin 2); rw [x21]; exact q.isLt
  unfold eblk Window.fill
  rw [dif_pos hmv]
  unfold iblk
  rw [View.read_apply]
  show V m c main_arg1 _ = V m c main_arg1 _
  refine congrArg _ ?_
  funext a; apply Fin.ext
  match a with
  | ⟨0, _⟩ => show win0_2.index t (0 : Fin 2) * 1536 + 1 * r.val = r'.val; rw [e20, hr']; omega
  | ⟨1, _⟩ => show win0_2.index t (1 : Fin 2) * 512 + 1 * q.val = q.val; rw [e21]; omega
/-- Entry `(b, r)` of the stored block, when the three blocks read the arrays at query row `b` and entity row `r'`, is
    the score of query row `b` against entity row `r'`. -/
private theorem point_eq (x0 x1 : Vec Ideal S1024x256 .bf16) (x2 : Vec Ideal S1536x512 .f32)
    (ra ia : (⟨2, ![1024, 256]⟩ : Shape).Idx → EReal) (e : (⟨2, ![200000, 512]⟩ : Shape).Idx → EReal)
    (b : Fin 1024) (r : Fin 1536) (r' : Fin 200000)
    (h0 : ∀ k : Fin 256, x0 (ix2 b k) = ra (ix2 b k))
    (h1 : ∀ k : Fin 256, x1 (ix2 b k) = ia (ix2 b k))
    (h2 : ∀ q : Fin 512, x2 (ix2 r q) = e (ix2 r' q)) :
    outBlk (F := Ideal) x0 x1 x2 (ix2 b r) = Cert.Spec.score ra ia e (ix2 b r') := by
  rw [outBlk_apply, Cert.Spec.score_apply]
  unfold Cert.Spec.rowScore
  simp only [h0, h1, h2]

/-- What point `t` writes back is its block of the score array: column `j` of the part inside the result is entity row
    `1536 t + j`, a row inside the table. -/
private theorem flushed_eq (c : Dev nD) (t : Fin cfg0.N) :
    (dats (F := Ideal) m 0 c).flushed 3 t
      = ((cfg0.win 3).blk t).view.read (Elt Ideal)
          (Cert.Spec.score (V m c main_v25) (V m c main_v29) (V m c main_arg1)) := by
  show (cfg0.win 3).cut (grid0.coords t) ((dats m 0 c).after 3 t) = _
  rw [after0_3]
  obtain ⟨-, -, -, -, -, -, e30, e31, x30, x31, -, hend⟩ := idx_facts t
  funext j
  rw [View.read_apply]
  have hj0 : (j 0).val < win0_3.xsize (grid0.coords t) (0 : Fin 2) := (j 0).isLt
  have hj1 : (j 1).val < win0_3.xsize (grid0.coords t) (1 : Fin 2) := (j 1).isLt
  have hle : win0_3.xsize (grid0.coords t) (1 : Fin 2) ≤ 1536 := win0_3.xsize_le (grid0.coords t) (1 : Fin 2)
  have hb : (j 0).val < 1024 := lt_of_lt_of_eq hj0 x30
  have hr : (j 1).val < 1536 := lt_of_lt_of_le hj1 hle
  have hr' : t.val * 1536 + (j 1).val < 200000 := ar_in _ _ _ hj1 hend
  have hL : win0_3.xinj (grid0.coords t) j = (ix2 ⟨(j 0).val, hb⟩ ⟨(j 1).val, hr⟩ : S1024x1536.Idx) := by
    funext a; apply Fin.ext
    match a with
    | ⟨0, _⟩ => rfl
    | ⟨1, _⟩ => rfl
  have hR : ((cfg0.win 3).blk t).view.emb j
      = (ix2 ⟨(j 0).val, hb⟩ ⟨t.val * 1536 + (j 1).val, hr'⟩ : S1024x200000.Idx) := by
    funext a; apply Fin.ext
    match a with
    | ⟨0, _⟩ => show win0_3.index t (0 : Fin 2) * 1024 + 1 * (j 0).val = (j 0).val; rw [e30]; exact ar_zero _
    | ⟨1, _⟩ => show win0_3.index t (1 : Fin 2) * 1536 + 1 * (j 1).val = t.val * 1536 + (j 1).val; rw [e31]; exact ar_one _ _
  refine (congrArg (outBlk (F := Ideal) (iblk m c 0 t) (iblk m c 1 t) (eblk m c t)) hL).trans ?_
  refine Eq.trans ?_ (congrArg (Cert.Spec.score (V m c main_v25) (V m c main_v29) (V m c main_arg1)) hR.symm)
  refine point_eq _ _ _ _ _ _ _ _ _ (fun k => ?_) (fun k => ?_) (fun q => ?_)
  · exact qblk0_apply m c t _ _ rfl rfl
  · exact qblk1_apply m c t _ _ rfl rfl
  · exact eblk_apply m c t _ q _ (lt_of_lt_of_eq hj1 x31) rfl
/-- An index of the result is in point `t`'s block iff each coordinate is in the block's range, cut, on its axis. -/
private theorem mem_blk (t : Fin cfg0.N) (i : S1024x200000.Idx) :
    i ∈ ((cfg0.win 3).blk t).view.set
      ↔ ∀ a : Fin 2, win0_3.index t a * S1024x1536.size a ≤ (i a).val
          ∧ (i a).val < win0_3.index t a * S1024x1536.size a + win0_3.xsize (grid0.coords t) a := by
  show i ∈ ((View.whole main_v30).slice (win0_3.rect t)).set ↔ _
  rw [View.set_slice_whole, Rect.mem_set_unit]
  exact Iff.rfl

/-- Every index of the result is in the block of the point its column falls to: column `r` in point `r / 1536`'s. -/
private theorem cover (i : S1024x200000.Idx) :
    ∃ t : Fin cfg0.N, (cfg0.win 3).flush t = true ∧ i ∈ ((cfg0.win 3).blk t).view.set := by
  have hi0 : (i 0).val < 1024 := (i 0).isLt
  have hi1 : (i 1).val < 200000 := (i 1).isLt
  obtain ⟨t, ht⟩ : ∃ t : Fin cfg0.N, t.val = (i 1).val / 1536 := ⟨⟨(i 1).val / 1536, ar_pt _ hi1⟩, rfl⟩
  obtain ⟨-, -, -, -, -, -, e30, e31, x30, -, -, hend⟩ := idx_facts t
  refine ⟨t, flush0_3 t, ?_⟩
  rw [mem_blk]
  intro a
  match a with
  | ⟨0, _⟩ =>
    show win0_3.index t (0 : Fin 2) * 1024 ≤ (i 0).val
      ∧ (i 0).val < win0_3.index t (0 : Fin 2) * 1024 + win0_3.xsize (grid0.coords t) (0 : Fin 2)
    rw [e30, x30]; exact ar_row _ hi0
  | ⟨1, _⟩ =>
    show win0_3.index t (1 : Fin 2) * 1536 ≤ (i 1).val
      ∧ (i 1).val < win0_3.index t (1 : Fin 2) * 1536 + win0_3.xsize (grid0.coords t) (1 : Fin 2)
    rw [e31]; exact ar_col _ _ _ hi1 ht hend

/-- The result array after the run is the score array: every point writes its block of it, and the blocks cover it. -/
theorem final (c : Dev nD) :
    (dats (F := Ideal) m 0 c).arrAt 3 cfg0.N = Cert.Spec.score (V m c main_v25) (V m c main_v29) (V m c main_arg1) :=
  (dats (F := Ideal) m 0 c).arrAt_eq_of_cover 3 _ (fun t _ => flushed_eq m c t) cover

end Cert.KernelIdeal.Body

end
-- ==== Proof.RefValue.lean ====
/-
  The reference's result, at the ideal instance, is `Spec.score` of its two query arrays (the stages `%26` and `%29`
  of its host program) and the entity table: each of its two matrix products is a plain sum over the 256 contracted
  columns, the transposed column half of the table read back at `(k, r)` is the table at `(r, k)` or `(r, 256 + k)`.
-/
import proofs.«135217_j8924942041805_1_alg».proof.Defs
import proofs.«135217_j8924942041805_1_alg».proof.Proof.Gen.ReferenceIdeal.Run
import proofs.«135217_j8924942041805_1_alg».proof.Proof.Gen.ReferenceIdeal.Read
import proofs.«135217_j8924942041805_1_alg».proof.Proof.Spec

set_option maxRecDepth 16384

noncomputable section

namespace Cert.RefSide

open Cert.ReferenceIdeal Cert.ReferenceIdeal.Gen Cert.ReferenceIdeal.Read
open Idealize.ShloMosaic Idealize.ShloMosaic.ValueIdx

theorem ref_eq (a0 : (⟨S1024x3, .i32⟩ : BufTy).Contents (Elt Ideal)) (a1 : (⟨S200000x512, .f32⟩ : BufTy).Contents (Elt Ideal))
    (a2 : (⟨S1000x512, .f32⟩ : BufTy).Contents (Elt Ideal)) :
    val_main_v34 (F := Ideal) a0 a1 a2
      = Cert.Spec.score (val_main_v26 (F := Ideal) a0 a1 a2) (val_main_v29 (F := Ideal) a0 a1 a2) a1 := by
  funext i
  obtain ⟨b, r, rfl⟩ : ∃ (b : Fin 1024) (r : Fin 200000), i = ValueIdx.ix2 b r := ⟨i 0, i 1, ValueIdx.eq_ix2 i⟩
  rw [val_main_v34_apply, val_main_v31_apply, val_main_v33_apply]
  simp only [val_main_v30_apply, val_main_v22_apply, val_main_v32_apply, val_main_v23_apply]
  have hl1 : ∀ k : Fin 256, lidx_main_v31 (ix2 b r) k = ix2 b k := fun k =>
    funext fun a => Fin.ext (by match a with | ⟨0, _⟩ => rfl | ⟨1, _⟩ => rfl)
  have hl3 : ∀ k : Fin 256, lidx_main_v33 (ix2 b r) k = ix2 b k := fun k =>
    funext fun a => Fin.ext (by match a with | ⟨0, _⟩ => rfl | ⟨1, _⟩ => rfl)
  have hr1 : ∀ k : Fin 256, idx_main_v22 (idx_main_v30 (ridx_main_v31 (ix2 b r) k)) = ix2 r (Cert.Spec.colRe k) := fun k =>
    funext fun a => Fin.ext (by match a with | ⟨0, _⟩ => rfl | ⟨1, _⟩ => rfl)
  have hr3 : ∀ k : Fin 256, idx_main_v23 (idx_main_v32 (ridx_main_v33 (ix2 b r) k)) = ix2 r (Cert.Spec.colIm k) := fun k =>
    funext fun a => Fin.ext (by match a with | ⟨0, _⟩ => rfl | ⟨1, _⟩ => rfl)
  simp only [hl1, hl3, hr1, hr3]
  rfl

end Cert.RefSide

end
-- ==== Proof.HostLink.lean ====
/-
  The two query arrays the kernel's region is launched on are the reference's query stages of the same three argument
  arrays: the host operations before the region — the two row gathers, the four column halves, the complex product's
  real and imaginary parts — are the reference's own, operation for operation, and the final cast to the narrower float
  format is the identity at the ideal instance.
-/
import proofs.«135217_j8924942041805_1_alg».proof.Proof.Gen.KernelIdeal.Frame
import proofs.«135217_j8924942041805_1_alg».proof.Proof.Gen.ReferenceIdeal.Read
import Idealize.ShloMosaic.Lib.StableHlo.Run

set_option maxRecDepth 16384

noncomputable section

namespace Cert.HostLink

open Idealize.ShloMosaic Idealize.ShloMosaic.TcCoe Idealize.SL.Sem Idealize.ShloMosaic.StableHlo

section
open Cert.KernelIdeal Cert.KernelIdeal.Gen

variable (m : (ℓ : Loc nD τ sig) → Buf (Elt Ideal) ℓ)

set_option maxHeartbeats 4000000 in
/-- The real part of the query, as the region finds it. -/
theorem query_re (c : Dev nD) :
    V m c main_v25
      = Cert.ReferenceIdeal.Read.val_main_v26 (F := Ideal) (m ((c.tc : Thread nD τ).loc main_arg0))
          (m ((c.tc : Thread nD τ).loc main_arg1)) (m ((c.tc : Thread nD τ).loc main_arg2)) := by
  show StableHlo.after hostOps0 (fun b => m (c, b)) (Proc.devRef .tc main_v25) = _
  delta hostOps0
  after_results_simp
  rfl

set_option maxHeartbeats 4000000 in
/-- The imaginary part of the query, as the region finds it. -/
theorem query_im (c : Dev nD) :
    V m c main_v29
      = Cert.ReferenceIdeal.Read.val_main_v29 (F := Ideal) (m ((c.tc : Thread nD τ).loc main_arg0))
          (m ((c.tc : Thread nD τ).loc main_arg1)) (m ((c.tc : Thread nD τ).loc main_arg2)) := by
  show StableHlo.after hostOps0 (fun b => m (c, b)) (Proc.devRef .tc main_v29) = _
  delta hostOps0
  after_results_simp
  rfl

end

end Cert.HostLink

end
-- ==== Proof.lean ====
/-
  The certificate. Both programs compute, for 1024 queries against a table of 200000 entities with 512 columns, the
  scores `score[b, r] = ∑ₖ ra[b, k] · e[r, k] + ∑ₖ ia[b, k] · e[r, 256 + k]` over the 256 complex coordinates, where
  `ra`, `ia` are the real and imaginary parts of head × relation (computed by the same host operations in both
  programs) and `e` is the entity table. The kernel streams the table in 131 blocks of 1536 rows, the last one
  overhanging the table's end, and computes each block's 1024 × 1536 scores as the sum of two matrix products that
  contract the column axis of both operands; the reference transposes the two column halves of the whole table and
  takes two plain matrix products. At the ideal instance a matrix product into a zero block is the plain sum of
  products and a change of float format is the identity, so the two agree entry by entry with no rearrangement of the
  sums: no finiteness is used. Column `r` of the result depends only on row `r` of the table, so the rows the last
  block holds below the table's end reach only columns the clipped write-back does not move.

  The frames: the reference's is its run with the result dropped; the idealized kernel's is its run (exact proof data,
  the two clipped windows stated on the part their transfers move); the printed kernel's, at the word-level instance
  where the matrix product is opaque, forgets the result window.
-/
import proofs.«135217_j8924942041805_1_alg».proof.Defs
import proofs.«135217_j8924942041805_1_alg».proof.Proof.Gen.Kernel
import proofs.«135217_j8924942041805_1_alg».proof.Proof.Gen.KernelIdeal
import proofs.«135217_j8924942041805_1_alg».proof.Proof.Gen.ReferenceIdeal
import proofs.«135217_j8924942041805_1_alg».proof.Proof.Gen.Pre_finite_inputs
import proofs.«135217_j8924942041805_1_alg».proof.Proof.KFrame
import proofs.«135217_j8924942041805_1_alg».proof.Proof.KIOblig
import proofs.«135217_j8924942041805_1_alg».proof.Proof.KIValue
import proofs.«135217_j8924942041805_1_alg».proof.Proof.RefValue
import proofs.«135217_j8924942041805_1_alg».proof.Proof.HostLink
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Body.frame (F := Bits) m ρ

/-- The idealized kernel's run with its result named: the result array ends holding the scores of the two query
    arrays and the table as the region finds them, the arguments unchanged. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v30)
            = Cert.Spec.score (Cert.KernelIdeal.Gen.V m c Cert.KernelIdeal.main_v25) (Cert.KernelIdeal.Gen.V m c Cert.KernelIdeal.main_v29)
                (Cert.KernelIdeal.Gen.V m c Cert.KernelIdeal.main_arg1)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).1 3).trans (Cert.KernelIdeal.Body.final m c),
      ((h c).2 Cert.KernelIdeal.main_arg0 (Pipeline.mem_restRefs_of Cert.KernelIdeal.main_arg0 (by decide) (by decide))).trans
        (Cert.KernelIdeal.Gen.V_main_arg0 m c),
      ((h c).1 2).trans (((Cert.KernelIdeal.Body.dats m 0 c).arrAt_in 2 rfl _).trans
        ((Cert.KernelIdeal.Body.A_eq m c 2).trans (Cert.KernelIdeal.Gen.V_main_arg1 m c))),
      ((h c).2 Cert.KernelIdeal.main_arg2 (Pipeline.mem_restRefs_of Cert.KernelIdeal.main_arg2 (by decide) (by decide))).trans
        (Cert.KernelIdeal.Gen.V_main_arg2 m c)⟩)
    (Cert.KernelIdeal.Body.run_main m ρ)

/-- The idealized kernel runs and leaves its arguments unchanged. -/
theorem frame_kernelIdeal : Cert.frame_KernelIdeal := fun m ρ _ =>
  (θ_run Cert.KernelIdeal.defs _ _).mono (fun _ h c => (h c).2) (kernel_value m ρ)

/-- The reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same scores: the reference's result is the
    score function of its own query stages and the table; its query stages are the kernel's query arrays, the same host
    operations of equal arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefSide.ref_eq, (hagree c).1, (hagree c).2.1, (hagree c).2.2,
    Cert.HostLink.query_re m c, Cert.HostLink.query_im m c, Cert.KernelIdeal.Gen.V_main_arg1 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
